-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x8192 : Shape := ⟨2, ![8192, 8192]⟩
abbrev S512x512 : Shape := ⟨2, ![512, 512]⟩
abbrev S512 : Shape := ⟨1, ![512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  main_v18

def fn {F : FTy → Type} [FloatOps F] (main_arg0 : FVec F S8192x512 .f32) (main_arg1 : FVec F S8192x8192 .f32) (main_arg2 : FVec F S512x512 .f32) (main_arg3 : FVec F S512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_v13 main_v16
-- ==== Kernel.lean ====
abbrev S8192x512 : Shape := ⟨2, ![8192, 512]⟩
abbrev S8192x8192 : Shape := ⟨2, ![8192, 8192]⟩
abbrev S512x512 : Shape := ⟨2, ![512, 512]⟩
abbrev S512 : Shape := ⟨1, ![512]⟩
abbrev S1x512 : Shape := ⟨2, ![1, 512]⟩
abbrev S1024x1024 : Shape := ⟨2, ![1024, 1024]⟩
abbrev S1024x512 : Shape := ⟨2, ![1024, 512]⟩

abbrev nBuf : Space → Nat
  | .hbm => 7
  | .vmem => 8
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S1x512, .f32⟩
  | .hbm, ⟨6, _⟩ => ⟨S8192x512, .f32⟩
  | .local _ .vmem, ⟨0, _⟩ => ⟨S1024x1024, .f32⟩
  | .local _ .vmem, ⟨1, _⟩ => ⟨S1024x1024, .f32⟩
  | .local _ .vmem, ⟨2, _⟩ => ⟨S8192x512, .f32⟩
  | .local _ .vmem, ⟨3, _⟩ => ⟨S512x512, .f32⟩
  | .local _ .vmem, ⟨4, _⟩ => ⟨S1x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c1024_i32 : BitVec 32 := 1024#32
  let v3 : BitVec 32 := Scalar.muli arg1 c1024_i32
  v3
def k0_off1 (i : grid0.Coords) : Fin 2 → Nat :=
  let arg1 : BitVec 32 := BitVec.ofNat 32 (i 1).val
  let c1024_i32 : BitVec 32 := 1024#32
  let v3 : BitVec 32 := Scalar.muli arg1 c1024_i32
  let v4 : BitVec 32 := v3
  let v5 : Index := Scalar.indexCast v4
  let c0 : Index := 0#32
  ![v5.toNat, 0]
def k0_cond2 (i : grid0.Coords) : BitVec 1 :=
  let arg1 : BitVec 32 := BitVec.ofNat 32 (i 1).val
  let c7_i32 : BitVec 32 := 7#32
  let v16 : BitVec 1 := Scalar.cmpi .eq arg1 c7_i32
  let v17 : BitVec 32 := Scalar.extui v16
  let c0_i32_7 : BitVec 32 := 0#32
  let v18 : BitVec 1 := Scalar.cmpi .ne v17 c0_i32_7
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8192x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  transposes_S512x512_S512x512_1_0 : S512x512.Transposes [1, 0] S512x512
  shapeCasts_S512_S1x512 : S512.ShapeCasts S1x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  dot_S1024x1024_S1024x512_S1024x512_1_0_0_1_n_n_wf : DotDims.WF S1024x1024 S1024x512 S1024x512 [1] [0] [0] [1] [] []
  dot_S1024x512_S512x512_S1024x512_1_0_0_1_n_n_wf : DotDims.WF S1024x512 S512x512 S1024x512 [1] [0] [0] [1] [] []
  hrank0 : 0 < grid0.rank
  k0_mult1_dvd : ∀ i : grid0.Coords, 1024 ∣ (k0_mult1 i).toNat
  k0_off1_inb : ∀ i : grid0.Coords, ∀ a, (k0_off1 i) a + S1024x512.size a ≤ S8192x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x8192.size a
  hwx0_0 : ∀ i : grid0.Coords, EltTy.bits .f32 = 32 ∨ (Rect.block (s := S8192x8192) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x512.size a ≤ S8192x512.size a
  hwx0_1 : ∀ i : grid0.Coords, EltTy.bits .f32 = 32 ∨ (Rect.block (s := S8192x512) S8192x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S8192x512.size a
  hwx0_4 : ∀ i : grid0.Coords, EltTy.bits .f32 = 32 ∨ (Rect.block (s := S8192x512) S1024x512.size (cc0_transform_4 i) (hinb0_4 i)).WholeWords (EltTy.packing .f32)

variable [Facts₀]

def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_arg1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S8192x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1024x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x512 : Shape := ⟨2, ![8192, 512]⟩
abbrev S8192x8192 : Shape := ⟨2, ![8192, 8192]⟩
abbrev S512x512 : Shape := ⟨2, ![512, 512]⟩
abbrev S512 : Shape := ⟨1, ![512]⟩
abbrev S1x512 : Shape := ⟨2, ![1, 512]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S512x512, .f32⟩
  | .hbm, ⟨3, _⟩ => ⟨S512, .f32⟩
  | .hbm, ⟨4, _⟩ => ⟨S8192x512, .f32⟩
  | .hbm, ⟨5, _⟩ => ⟨S512x512, .f32⟩
  | .hbm, ⟨6, _⟩ => ⟨S8192x512, .f32⟩
  | .hbm, ⟨7, _⟩ => ⟨S1x512, .f32⟩
  | .hbm, ⟨8, _⟩ => ⟨S8192x512, .f32⟩
  | .hbm, ⟨9, _⟩ => ⟨S8192x512, .f32⟩
  | .hbm, ⟨10, _⟩ => ⟨S_, .f32⟩
  | .hbm, ⟨11, _⟩ => ⟨S8192x512, .f32⟩
  | .hbm, ⟨12, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_cst : Ref sig .tc := ⟨.hbm, 10, rfl⟩
abbrev main_call0_v0 : Ref sig .tc := ⟨.hbm, 11, rfl⟩
abbrev main_v6 : Ref sig .tc := ⟨.hbm, 12, rfl⟩

abbrev nD : Nat := 1
abbrev τ : Topo := Topo.v7x

variable {F : FTy → Type} [FloatOps F]

class Facts₀ : Prop where
  transposes_S512x512_S512x512_1_0 : S512x512.Transposes [1, 0] S512x512
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  bcast_S_S8192x512 : S_.BroadcastsInDim S8192x512 (![] : Fin 0 → Fin S8192x512.rank)
  dot_S8192x8192_S8192x512_S8192x512_1_0_0_1_n_n_wf : DotDims.WF S8192x8192 S8192x512 S8192x512 [1] [0] [0] [1] [] []
  dot_S8192x512_S512x512_S8192x512_1_0_0_1_n_n_wf : DotDims.WF S8192x512 S512x512 S8192x512 [1] [0] [0] [1] [] []

variable [Facts₀]

def dot_S8192x8192_S8192x512_S8192x512_1_0_0_1_n_n : DotDims S8192x8192 S8192x512 S8192x512 where
  lhsContracting := [1]
  rhsContracting := [0]
  lhsNonContracting := [0]
  rhsNonContracting := [1]
  lhsBatch := []
  rhsBatch := []
  wf := dot_S8192x8192_S8192x512_S8192x512_1_0_0_1_n_n_wf
def dot_S8192x512_S512x512_S8192x512_1_0_0_1_n_n : DotDims S8192x512 S512x512 S8192x512 where
  lhsContracting := [1]
  rhsContracting := [0]
  lhsNonContracting := [0]
  rhsNonContracting := [1]
  lhsBatch := []
  rhsBatch := []
  wf := dot_S8192x512_S512x512_S8192x512_1_0_0_1_n_n_wf

class Facts : Prop extends Facts₀ where

variable [Facts]
-- ==== Proof.Pieces.lean ====
/-
  What one grid point leaves behind, as values. The kernel walks a grid of 8 row tiles by 8 contraction tiles. At
  each point it adds, into a [1024, 512] accumulator kept between points, the product of the point's [1024, 1024]
  block of the adjacency matrix with the matching 1024 rows of the feature matrix; at a row tile's first
  contraction tile the accumulator starts from zero, and at its last the accumulated block, multiplied by the
  transposed weight, shifted by the bias and clamped below at zero, is the row tile's block of the result.
  Here each of the three kinds of point (first, middle, last contraction tile) is read back as a pure term of the
  blocks it loads and of what the point before left in the accumulator.
-/
import proofs.«161947_j37692632990313_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Layer

open Cert.KernelIdeal Cert.KernelIdeal.Gen

variable {F : FTy → Type} [FloatOps F]

theorem zero_offsets : (![0, 0] : Fin 2 → Nat) = fun _ => 0 := funext fun a => by fin_cases a <;> rfl

/-- The 1024 rows of the feature matrix that go with the point's contraction tile: rows 1024·k … 1024·k + 1023. -/
abbrev featureRows (i : grid0.Coords) (x1 : Vec F S8192x512 .f32) : Vec F S1024x512 .f32 :=
  View.ld x1 (Rect.unit (s := S8192x512) (k0_off1 i) S1024x512.size (k0_off1_inb i))

/-- The accumulator's zero start. -/
abbrev zeroAcc : Vec F S1024x512 .f32 := k0_pay1

/-- One accumulation step: the prior accumulator plus the block product. -/
abbrev accStep (i : grid0.Coords) (x0 : Vec F S1024x1024 .f32) (x1 : Vec F S8192x512 .f32) (acc : Vec F S1024x512 .f32) :
    Vec F S1024x512 .f32 :=
  k0_pay2 (featureRows i x1) x0 acc

/-- A middle contraction tile leaves one accumulation step over what the point before left. -/
theorem scratch_middle (c : Dev nD) (i : grid0.Coords) (arg2 : Memref sig .tc .vmem S1024x1024 .f32) (harg2 : arg2.IsWhole) (arg3 : Memref sig .tc .vmem S8192x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x512 .f32) (harg7 : arg7.IsWhole) (hc0 : ¬cond0_0 i) (hc1 : ¬cond0_1 i)
    (x0 : Vec F S1024x1024 .f32) (x1 : Vec F S8192x512 .f32) (x2 : Vec F S512x512 .f32) (x3 : Vec F S1x512 .f32) (xs0 : Vec F S1024x512 .f32) :
    sout0_B_0 c i arg2 harg2 arg3 harg3 arg4 harg4 arg5 harg5 arg6 harg6 arg7 harg7 hc0 hc1 x0 x1 x2 x3 xs0 = accStep i x0 x1 xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  sl_unfold_words
  rw [View.canon_unit_zero zero_offsets]
  simp only [View.readAt_eq_ld, harg2.read_unread, harg3.read_unread, harg7.read_unread,
    View.ld_unit_zero (S := S1024x1024) zero_offsets, View.ld_unit_zero (S := S1024x512) zero_offsets]
  rfl

/-- The last contraction tile leaves the same step in the accumulator. -/
theorem scratch_last (c : Dev nD) (i : grid0.Coords) (arg2 : Memref sig .tc .vmem S1024x1024 .f32) (harg2 : arg2.IsWhole) (arg3 : Memref sig .tc .vmem S8192x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x512 .f32) (harg7 : arg7.IsWhole) (hc0 : ¬cond0_0 i) (hc1 : cond0_1 i)
    (x0 : Vec F S1024x1024 .f32) (x1 : Vec F S8192x512 .f32) (x2 : Vec F S512x512 .f32) (x3 : Vec F S1x512 .f32) (xs0 : Vec F S1024x512 .f32) :
    sout0_C_0 c i arg2 harg2 arg3 harg3 arg4 harg4 arg5 harg5 arg6 harg6 arg7 harg7 hc0 hc1 x0 x1 x2 x3 xs0 = accStep i x0 x1 xs0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero zero_offsets]
  simp only [View.readAt_eq_ld, harg2.read_unread, harg3.read_unread, harg7.read_unread,
    View.ld_unit_zero (S := S1024x1024) zero_offsets, View.ld_unit_zero (S := S1024x512) zero_offsets]
  rfl

/-- The first contraction tile stores zeros, reads them back, and leaves one step over them: what the accumulator
    held before does not enter. -/
theorem scratch_first (c : Dev nD) (i : grid0.Coords) (arg2 : Memref sig .tc .vmem S1024x1024 .f32) (harg2 : arg2.IsWhole) (arg3 : Memref sig .tc .vmem S8192x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x512 .f32) (harg7 : arg7.IsWhole) (hc0 : cond0_0 i) (hc1 : ¬cond0_1 i)
    (x0 : Vec F S1024x1024 .f32) (x1 : Vec F S8192x512 .f32) (x2 : Vec F S512x512 .f32) (x3 : Vec F S1x512 .f32) :
    sout0_A_0 c i arg2 harg2 arg3 harg3 arg4 harg4 arg5 harg5 arg6 harg6 arg7 harg7 hc0 hc1 x0 x1 x2 x3 = accStep i x0 x1 zeroAcc := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S1024x512) zero_offsets, View.readCov_unit_zero (S := S1024x512) _ zero_offsets]
  simp only [View.readAt_eq_ld, harg2.read_unread, harg3.read_unread,
    View.ld_unit_zero (S := S1024x1024) zero_offsets]
  rfl

/-- At the last contraction tile the result block is the finished accumulator times the transposed weight, plus the
    bias row, clamped below at zero. -/
theorem block_last (c : Dev nD) (i : grid0.Coords) (arg2 : Memref sig .tc .vmem S1024x1024 .f32) (harg2 : arg2.IsWhole) (arg3 : Memref sig .tc .vmem S8192x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x512 .f32) (harg7 : arg7.IsWhole) (hc0 : ¬cond0_0 i) (hc1 : cond0_1 i)
    (x0 : Vec F S1024x1024 .f32) (x1 : Vec F S8192x512 .f32) (x2 : Vec F S512x512 .f32) (x3 : Vec F S1x512 .f32) (xs0 : Vec F S1024x512 .f32) :
    out0_C_4 c i arg2 harg2 arg3 harg3 arg4 harg4 arg5 harg5 arg6 harg6 arg7 harg7 hc0 hc1 x0 x1 x2 x3 xs0 = k0_pay3 (accStep i x0 x1 xs0) x2 x3 := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero zero_offsets]
  simp only [View.readAt_eq_ld, harg2.read_unread, harg3.read_unread, harg4.read_unread, harg5.read_unread, harg7.read_unread,
    View.readCov_unit_zero (S := S1024x512) _ zero_offsets,
    View.ld_unit_zero (S := S1024x1024) zero_offsets, View.ld_unit_zero (S := S1024x512) zero_offsets,
    View.ld_unit_zero (S := S512x512) zero_offsets, View.ld_unit_zero (S := S1x512) zero_offsets]
  rfl

end Cert.KernelIdeal.Layer

end
-- ==== Proof.Steps.lean ====
/-
  What the accumulator and the result block hold after a grid point, in terms of the point's own blocks and of what the
  point before left. Points are numbered row tile by row tile, eight contraction tiles each, so point t works on row
  tile t / 8 and contraction tile t % 8. The first tile of a row tile (t % 8 = 0) starts from zero; every other tile
  continues from the point before; the last tile (t % 8 = 7) also finishes the row tile's block of the result.
-/
import proofs.«161947_j37692632990313_1_alg».proof.Proof.Pieces

noncomputable section

open Idealize.ShloMosaic Idealize.ShloMosaic.TcCoe Idealize.SL.Sem

namespace Cert.KernelIdeal.Layer

open Cert.KernelIdeal Cert.KernelIdeal.Gen

variable {F : FTy → Type} [FloatOps F]
variable (m : (ℓ : Loc nD τ sig) → Buf (Elt F) ℓ)

/-- The point's block of the adjacency matrix and the whole feature matrix, as the body is handed them. -/
abbrev adjBlock (c : Dev nD) (t : Fin cfg0.N) : Vec F S1024x1024 .f32 := iblk m c 0 t
abbrev featAll (c : Dev nD) (t : Fin cfg0.N) : Vec F S8192x512 .f32 := iblk m c 1 t
abbrev weightT (c : Dev nD) (t : Fin cfg0.N) : Vec F S512x512 .f32 := iblk m c 2 t
abbrev biasRow (c : Dev nD) (t : Fin cfg0.N) : Vec F S1x512 .f32 := iblk m c 3 t

/-- After a row tile's first contraction tile the accumulator is one step from zero. -/
theorem acc_at_first (c : Dev nD) (t : Fin cfg0.N) (h0 : t.val % 8 = 0) :
    (outsAt0 m c t.val t.isLt).2 = accStep (grid0.coords t) (adjBlock m c t) (featAll m c t) zeroAcc := by
  have h1 : ¬t.val % 8 = 7 := by omega
  rw [outsAt0_A m c t h0 h1]
  dsimp only
  exact scratch_first c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)

/-- After any other contraction tile it is one step from what the point before left. -/
theorem acc_at_next (c : Dev nD) (t : Fin cfg0.N) (h0 : ¬t.val % 8 = 0) :
    (outsAt0 m c t.val t.isLt).2
      = accStep (grid0.coords t) (adjBlock m c t) (featAll m c t) (outsAt0 m c (t.val - 1) (Nat.lt_of_le_of_lt (Nat.sub_le _ _) t.isLt)).2 := by
  by_cases h1 : t.val % 8 = 7
  · rw [outsAt0_C m c t h0 h1]
    dsimp only
    exact scratch_last c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2
  · rw [outsAt0_B m c t h0 h1]
    dsimp only
    exact scratch_middle c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2

/-- At a row tile's last contraction tile the result block is the finishing payload of the accumulator as that
    point leaves it. -/
theorem block_at_last (c : Dev nD) (t : Fin cfg0.N) (h1 : t.val % 8 = 7) :
    (outsAt0 m c t.val t.isLt).1 = k0_pay3 (outsAt0 m c t.val t.isLt).2 (weightT m c t) (biasRow m c t) := by
  have h0 : ¬t.val % 8 = 0 := by omega
  rw [outsAt0_C m c t h0 h1]
  dsimp only
  rw [scratch_last c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2]
  exact block_last c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2

end Cert.KernelIdeal.Layer

end
-- ==== Proof.LibSumTiles.lean ====
/-
  A general lemma. A finite sum over the T·K indices of a tiled axis is the sum, over the T tiles, of each tile's sum
  over its K indices, index K·s + kk being index kk of tile s. It holds in any commutative additive monoid, so in
  particular over the extended reals, where no finiteness is needed to regroup a sum.
-/
import Mathlib.Algebra.BigOperators.Fin
import Mathlib.Logic.Equiv.Fin.Basic

namespace Cert.SumTiles

/-- Index `kk` of tile `s`. -/
def at_ {T K : ℕ} (s : Fin T) (kk : Fin K) : Fin (T * K) :=
  ⟨K * s.val + kk.val, by
    have hs := s.isLt; have hk := kk.isLt
    calc K * s.val + kk.val < K * s.val + K := Nat.add_lt_add_left hk _
      _ = K * (s.val + 1) := by rw [Nat.mul_succ]
      _ ≤ K * T := Nat.mul_le_mul_left _ hs
      _ = T * K := Nat.mul_comm _ _⟩

theorem at_val {T K : ℕ} (s : Fin T) (kk : Fin K) : (at_ s kk).val = K * s.val + kk.val := rfl

/-- A sum over a tiled axis, tile by tile. -/
theorem sum_tiles {M : Type*} [AddCommMonoid M] (T K : ℕ) (g : Fin (T * K) → M) :
    ∑ k : Fin (T * K), g k = ∑ s : Fin T, ∑ kk : Fin K, g (at_ s kk) := by
  rw [← Equiv.sum_comp finProdFinEquiv g, Fintype.sum_prod_type]
  refine Finset.sum_congr rfl fun s _ => Finset.sum_congr rfl fun kk _ => congrArg g (Fin.ext ?_)
  show kk.val + K * s.val = K * s.val + kk.val
  exact Nat.add_comm _ _

end Cert.SumTiles
-- ==== Proof.Spec.lean ====
/-
  The layer as one function of its four arguments, entry by entry over the extended reals, and the one law the
  proof needs: the aggregate's contraction over 8192 neighbours is the sum of its 8 tiles of 1024.

  For features x [8192, 512], adjacency adj [8192, 8192], weight W [512, 512] and bias b [512]:
    agg (i, d)   = ∑ K, adj (i, K) · x (K, d)
    layer (i, j) = max (∑ d, agg (i, d) · W (j, d) + b j, 0).
  Regrouping a finite sum needs only that addition is commutative and associative, which holds on the extended
  reals with no finiteness assumption.
-/
import Idealize.ShloMosaic.Lib.ValueIdx
import Idealize.ShloMosaic.PureOps.Ideal.Laws
import proofs.«161947_j37692632990313_1_alg».proof.Proof.LibSumTiles

noncomputable section

open Idealize.ShloMosaic Idealize.ShloMosaic.ValueIdx

namespace Cert.LayerSpec

/-- Entry (a, b) of a rank-two array by natural coordinates; zero off the array (never consulted there). -/
def at2 {n0 n1 : ℕ} (A : (⟨2, ![n0, n1]⟩ : Shape).Idx → EReal) (a b : ℕ) : EReal :=
  if h : a < n0 ∧ b < n1 then A (ix2 ⟨a, h.1⟩ ⟨b, h.2⟩) else 0

theorem at2_of_lt {n0 n1 : ℕ} (A : (⟨2, ![n0, n1]⟩ : Shape).Idx → EReal) {a b : ℕ} (ha : a < n0) (hb : b < n1) :
    at2 A a b = A (ix2 ⟨a, ha⟩ ⟨b, hb⟩) := dif_pos ⟨ha, hb⟩

/-- Contraction tile `s`'s share of the aggregate at row `row` and feature `d`: neighbours 1024·s … 1024·s + 1023. -/
def tile (adj : FVec Ideal ⟨2, ![8192, 8192]⟩ .f32) (x : FVec Ideal ⟨2, ![8192, 512]⟩ .f32) (row s : ℕ) (d : Fin 512) : EReal :=
  ∑ kk : Fin 1024, at2 adj row (1024 * s + kk.val) * at2 x (1024 * s + kk.val) d.val

/-- The aggregate: row `i` of adj · x. -/
def agg (adj : FVec Ideal ⟨2, ![8192, 8192]⟩ .f32) (x : FVec Ideal ⟨2, ![8192, 512]⟩ .f32) (i : Fin 8192) (d : Fin 512) : EReal :=
  ∑ K : Fin 8192, adj (ix2 i K) * x (ix2 K d)

/-- The aggregate is the sum of its eight tiles. -/
theorem agg_eq_tiles (adj : FVec Ideal ⟨2, ![8192, 8192]⟩ .f32) (x : FVec Ideal ⟨2, ![8192, 512]⟩ .f32) (i : Fin 8192) (d : Fin 512) :
    agg adj x i d = ∑ s ∈ Finset.range 8, tile adj x i.val s d := by
  rw [Finset.sum_range]
  refine (Cert.SumTiles.sum_tiles 8 1024 (fun K : Fin (8 * 1024) => adj (ix2 i K) * x (ix2 K d))).trans ?_
  refine Finset.sum_congr rfl fun s _ => Finset.sum_congr rfl fun kk _ => ?_
  have hk : 1024 * s.val + kk.val < 8192 := by have := s.isLt; have := kk.isLt; omega
  rw [at2_of_lt adj i.isLt hk, at2_of_lt x hk d.isLt]
  rfl

/-- The layer's result at entry `i`. -/
def layer (x : FVec Ideal ⟨2, ![8192, 512]⟩ .f32) (adj : FVec Ideal ⟨2, ![8192, 8192]⟩ .f32)
    (W : FVec Ideal ⟨2, ![512, 512]⟩ .f32) (b : FVec Ideal ⟨1, ![512]⟩ .f32) : FVec Ideal ⟨2, ![8192, 512]⟩ .f32 :=
  fun i => max ((∑ d : Fin 512, agg adj x (i 0) d * W (ix2 (i 1) d)) + b (ix1 (i 1))) (Ideal.ofBits .f32 0x00000000#32)

end Cert.LayerSpec

end
-- ==== Proof.Blocks.lean ====
/-
  Each block the body is handed, read at one entry of the argument it comes from, at the exact instance.
  Point t works on row tile t / 8 and contraction tile t % 8, so its adjacency block holds rows 1024·(t / 8) … and
  columns 1024·(t % 8) …; the feature matrix is handed over whole and the body itself cuts rows 1024·(t % 8) …;
  the transposed weight and the bias row are written by the two host operations that come before the kernel.
-/
import proofs.«161947_j37692632990313_1_alg».proof.Proof.Steps
import proofs.«161947_j37692632990313_1_alg».proof.Proof.Spec
import Idealize.ShloMosaic.Lib.StableHlo.Run
import Idealize.ShloMosaic.Lib.Pipeline.Value
import Idealize.ShloMosaic.Lib.ValueIdx

noncomputable section

open Idealize.ShloMosaic Idealize.ShloMosaic.TcCoe Idealize.SL.Sem
open Idealize.ShloMosaic.ValueIdx Cert.LayerSpec
namespace Cert.KernelIdeal.Layer

open Cert.KernelIdeal Cert.KernelIdeal.Gen

variable (m : (ℓ : Loc nD τ sig) → Buf (Elt Ideal) ℓ)

/-- The four arguments as launched. -/
abbrev featArr (c : Dev nD) : FVec Ideal ⟨2, ![8192, 512]⟩ .f32 := m ((c : Thread nD τ).loc main_arg0)
abbrev adjArr (c : Dev nD) : FVec Ideal ⟨2, ![8192, 8192]⟩ .f32 := m ((c : Thread nD τ).loc main_arg1)
abbrev weightArr (c : Dev nD) : FVec Ideal ⟨2, ![512, 512]⟩ .f32 := m ((c : Thread nD τ).loc main_arg2)
abbrev biasArr (c : Dev nD) : FVec Ideal ⟨1, ![512]⟩ .f32 := m ((c : Thread nD τ).loc main_arg3)

/-! ## Which block each window shows at a point (decided once over the 64 points) -/

theorem adj_index : ∀ t : Fin cfg0.N, win0_0.index t 0 = t.val / 8 ∧ win0_0.index t 1 = t.val % 8 :=
  (by decide +kernel : ∀ t : Fin grid0.N, win0_0.index t 0 = t.val / 8 ∧ win0_0.index t 1 = t.val % 8)
theorem feat_index : ∀ t : Fin cfg0.N, win0_1.index t 0 = 0 ∧ win0_1.index t 1 = 0 :=
  (by decide +kernel : ∀ t : Fin grid0.N, win0_1.index t 0 = 0 ∧ win0_1.index t 1 = 0)
theorem weight_index : ∀ t : Fin cfg0.N, win0_2.index t 0 = 0 ∧ win0_2.index t 1 = 0 :=
  (by decide +kernel : ∀ t : Fin grid0.N, win0_2.index t 0 = 0 ∧ win0_2.index t 1 = 0)
theorem bias_index : ∀ t : Fin cfg0.N, win0_3.index t 0 = 0 ∧ win0_3.index t 1 = 0 :=
  (by decide +kernel : ∀ t : Fin grid0.N, win0_3.index t 0 = 0 ∧ win0_3.index t 1 = 0)
theorem out_index : ∀ t : Fin cfg0.N, win0_4.index t 0 = t.val / 8 ∧ win0_4.index t 1 = 0 :=
  (by decide +kernel : ∀ t : Fin grid0.N, win0_4.index t 0 = t.val / 8 ∧ win0_4.index t 1 = 0)
/-- The first feature row the body cuts at a point. -/
theorem rows_offset : ∀ t : Fin cfg0.N, k0_off1 (grid0.coords t) 0 = 1024 * (t.val % 8) ∧ k0_off1 (grid0.coords t) 1 = 0 :=
  (by decide +kernel : ∀ t : Fin grid0.N, k0_off1 (grid0.coords t) 0 = 1024 * (t.val % 8) ∧ k0_off1 (grid0.coords t) 1 = 0)

/-! ## The blocks at an entry -/

theorem adjBlock_apply (c : Dev nD) (t : Fin cfg0.N) (r kk : Fin 1024) :
    adjBlock m c t (ix2 r kk) = at2 (adjArr m c) (1024 * (t.val / 8) + r.val) (1024 * (t.val % 8) + kk.val) := by
  have hN := lt_of_lt_of_eq t.isLt (show cfg0.N = 64 from N_0)
  have hr : 1024 * (t.val / 8) + r.val < 8192 := by have := r.isLt; omega
  have hk : 1024 * (t.val % 8) + kk.val < 8192 := by have := kk.isLt; omega
  rw [at2_of_lt _ hr hk]
  show iblk m c 0 t (ix2 r kk) = _
  unfold iblk
  rw [View.read_apply]
  show V m c main_arg1 _ = m ((c : Thread nD τ).loc main_arg1) _
  rw [V_main_arg1 m c]
  refine congrArg (m ((c : Thread nD τ).loc main_arg1)) (funext fun a => Fin.ext ?_)
  match a with
  | ⟨0, _⟩ => show win0_0.index t 0 * 1024 + 1 * r.val = 1024 * (t.val / 8) + r.val; rw [(adj_index t).1]; omega
  | ⟨1, _⟩ => show win0_0.index t 1 * 1024 + 1 * kk.val = 1024 * (t.val % 8) + kk.val; rw [(adj_index t).2]; omega

theorem featRows_apply (c : Dev nD) (t : Fin cfg0.N) (kk : Fin 1024) (d : Fin 512) :
    featureRows (grid0.coords t) (featAll m c t) (ix2 kk d) = at2 (featArr m c) (1024 * (t.val % 8) + kk.val) d.val := by
  have hN := lt_of_lt_of_eq t.isLt (show cfg0.N = 64 from N_0)
  have hk : 1024 * (t.val % 8) + kk.val < 8192 := by have := kk.isLt; omega
  rw [at2_of_lt _ hk d.isLt]
  show iblk m c 1 t ((Rect.unit (s := S8192x512) (k0_off1 (grid0.coords t)) S1024x512.size (k0_off1_inb (grid0.coords t))).emb (ix2 kk d)) = _
  unfold iblk
  rw [View.read_apply]
  show V m c main_arg0 _ = m ((c : Thread nD τ).loc main_arg0) _
  rw [V_main_arg0 m c]
  refine congrArg (m ((c : Thread nD τ).loc main_arg0)) (funext fun a => Fin.ext ?_)
  match a with
  | ⟨0, _⟩ => show win0_1.index t 0 * 8192 + 1 * (k0_off1 (grid0.coords t) 0 + 1 * kk.val) = 1024 * (t.val % 8) + kk.val
              rw [(feat_index t).1, (rows_offset t).1]; omega
  | ⟨1, _⟩ => show win0_1.index t 1 * 512 + 1 * (k0_off1 (grid0.coords t) 1 + 1 * d.val) = d.val
              rw [(feat_index t).2, (rows_offset t).2]; omega

/-- The array window 2 stages is the weight transposed, written by the host before the kernel. -/
theorem weightT_array (c : Dev nD) :
    (V m c main_v0 : S512x512.Idx → EReal) = transpose S512x512 [1, 0] (weightArr m c) transposes_S512x512_S512x512_1_0 := by
  dsimp only [V, hostOps0]; after_results

theorem weightT_apply (c : Dev nD) (t : Fin cfg0.N) (d j : Fin 512) :
    weightT m c t (ix2 d j) = weightArr m c (ix2 j d) := by
  show iblk m c 2 t (ix2 d j) = _
  unfold iblk
  rw [View.read_apply]
  show V m c main_v0 _ = _
  rw [weightT_array m c]
  refine (transpose_apply [1, 0] (weightArr m c) transposes_S512x512_S512x512_1_0 _ (ix2 j d) (fun b => ?_))
  match b with
  | ⟨0, _⟩ => show d.val = win0_2.index t 0 * 512 + 1 * d.val; rw [(weight_index t).1]; omega
  | ⟨1, _⟩ => show j.val = win0_2.index t 1 * 512 + 1 * j.val; rw [(weight_index t).2]; omega

/-- The array window 3 stages is the bias as one row, written by the host before the kernel. -/
theorem biasRow_array (c : Dev nD) :
    (V m c main_v1 : S1x512.Idx → EReal) = shapeCast S1x512 (biasArr m c) shapeCasts_S512_S1x512 := by
  dsimp only [V, hostOps0]; after_results; rfl

theorem biasRow_apply (c : Dev nD) (t : Fin cfg0.N) (j : Fin 512) :
    biasRow m c t (ix2 0 j) = biasArr m c (ix1 j) := by
  show iblk m c 3 t (ix2 0 j) = _
  unfold iblk
  rw [View.read_apply]
  show V m c main_v1 _ = _
  rw [biasRow_array m c]
  refine shapeCast_apply (biasArr m c) shapeCasts_S512_S1x512 _ (ix1 j) ?_
  rw [Shape.rowMajor_val_one, Shape.rowMajor_val_two]
  show j.val = (win0_3.index t 0 * 1 + 1 * 0) * 512 + (win0_3.index t 1 * 512 + 1 * j.val)
  rw [(bias_index t).1, (bias_index t).2]; omega

end Cert.KernelIdeal.Layer

end
-- ==== Proof.LibMatmulPlain.lean ====
/-
  A general lemma. The plain matrix product of an [M, K] array by a [K, N] array (the left operand contracted on its
  second axis, the right on its first, no batch axes), accumulated into the zero array and read at the exact
  instance, is at entry (p, q) the finite sum over the contraction coordinate k of left (p, k) · right (k, q).
  It holds for all sizes and both operands' formats.
-/
import Idealize.ShloMosaic.Lib.ValueIdx
import Idealize.ShloMosaic.PureOps.Ideal.Laws

namespace Idealize.ShloMosaic.MatmulPlain

open Idealize.ShloMosaic Idealize.ShloMosaic.ValueIdx

variable {M K N : ℕ}

/-- The left operand's row coordinate is the result's row coordinate. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row coordinate is the contraction coordinate. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column coordinate is the result's column coordinate. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- Entry (p, q) of the plain product into a zero accumulator is ∑ k, left (p, k) · right (k, q). -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    matmul (DotDims.plain M K N) prec l r (constant ⟨2, ![M, N]⟩ .f32 0x00000000#32) (ix2 p q)
      = ∑ k : Fin K, l (ix2 p k) * r (ix2 k q) := by
  show FloatOps.matmul (DotDims.plain M K N) prec l r (constant ⟨2, ![M, N]⟩ .f32 0x00000000#32) (ix2 p q) = _
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row _ _
      | ⟨1, _⟩ => exact (lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row _ _).trans hk
      | ⟨1, _⟩ => exact rhs_col _ _)
  rw [el, er]

end Idealize.ShloMosaic.MatmulPlain
-- ==== Proof.Payload.lean ====
/-
  The two arithmetic payloads of the body read at one entry, at the exact instance. A change of float format is the
  identity there, a block product into a zero accumulator is the finite sum over the contraction coordinate, and the
  clamp is the maximum with zero.
-/
import proofs.«161947_j37692632990313_1_alg».proof.Proof.Pieces
import proofs.«161947_j37692632990313_1_alg».proof.Proof.LibMatmulPlain
import Idealize.ShloMosaic.Lib.ValueIdx
import Idealize.ShloMosaic.Lib.Pipeline.Value
import Idealize.ShloMosaic.PureOps.Ideal.Laws

noncomputable section

open Idealize.ShloMosaic Idealize.ShloMosaic.TcCoe Idealize.SL.Sem
open Idealize.ShloMosaic.ValueIdx
namespace Cert.KernelIdeal.Layer

open Cert.KernelIdeal Cert.KernelIdeal.Gen

/-- One accumulation step at entry (r, d): the prior accumulator there plus the block's row r against the feature
    rows' column d. -/
theorem accStep_apply (i : grid0.Coords) (x0 : Vec Ideal S1024x1024 .f32) (x1 : Vec Ideal S8192x512 .f32)
    (acc : Vec Ideal S1024x512 .f32) (r : Fin 1024) (d : Fin 512) :
    accStep i x0 x1 acc (ix2 r d) = acc (ix2 r d) + ∑ kk : Fin 1024, x0 (ix2 r kk) * featureRows i x1 (ix2 kk d) := by
  unfold accStep k0_pay2
  simp only [shapeCast_self]
  exact congrArg (acc (ix2 r d) + ·)
    (MatmulPlain.matmul_zero_apply (M := 1024) (K := 1024) (N := 512) none
      (truncf .bf16 x0 bitsLt_bf16_f32) (truncf .bf16 (featureRows i x1) bitsLt_bf16_f32) r d)

/-- The zero start at any entry. -/
theorem zeroAcc_apply (y : S1024x512.Idx) : (zeroAcc (F := Ideal)) y = 0 := by
  unfold zeroAcc k0_pay1
  simp only [shapeCast_self]
  exact Ideal.ofBits_zero_f32

/-- The bias row, broadcast down the block's rows, at entry (r, j) is the row's entry j. -/
theorem biasRows_apply (brow : Vec Ideal S1x512 .f32) (r : Fin 1024) (j : Fin 512) :
    broadcastTo S1024x512 brow broadcasts_S1x512_S1024x512 (ix2 r j) = brow (ix2 0 j) :=
  broadcastTo_apply brow broadcasts_S1x512_S1024x512 (ix2 r j) (ix2 0 j) (fun a => match a with
    | ⟨0, _⟩ => by show (0 : ℕ) = if (1 : ℕ) = 1 then 0 else _; rw [if_pos rfl]
    | ⟨1, _⟩ => by show j.val = if (512 : ℕ) = 1 then 0 else j.val; rw [if_neg (by decide)])

/-- The finishing payload at entry (r, j): the accumulator's row r against the transposed weight's column j, plus
    the bias, clamped below at zero. -/
theorem finish_apply (acc : Vec Ideal S1024x512 .f32) (wt : Vec Ideal S512x512 .f32) (brow : Vec Ideal S1x512 .f32)
    (r : Fin 1024) (j : Fin 512) :
    k0_pay3 acc wt brow (ix2 r j)
      = max ((∑ d : Fin 512, acc (ix2 r d) * wt (ix2 d j)) + brow (ix2 0 j)) (Ideal.ofBits .f32 0x00000000#32) := by
  unfold k0_pay3
  simp only [shapeCast_self]
  have e1 := MatmulPlain.matmul_zero_apply (M := 1024) (K := 512) (N := 512) none
      (truncf .bf16 acc bitsLt_bf16_f32) (truncf .bf16 wt bitsLt_bf16_f32) r j
  have e2 := biasRows_apply brow r j
  exact congrArg₂ max (congrArg₂ (· + ·) e1 e2) rfl

end Cert.KernelIdeal.Layer

end
-- ==== Proof.Acc.lean ====
/-
  The accumulator after every grid point. After point t, which is contraction tile t % 8 of row tile t / 8, entry
  (r, d) of the accumulator is the sum of tiles 0 … t % 8 of the aggregate at row 1024·(t / 8) + r and feature d:
  the first tile starts from zero, each later tile adds its own share to what the point before left. By induction on
  the point; the sixty-four points are never listed.
-/
import proofs.«161947_j37692632990313_1_alg».proof.Proof.Blocks
import proofs.«161947_j37692632990313_1_alg».proof.Proof.Payload

noncomputable section

open Idealize.ShloMosaic Idealize.ShloMosaic.TcCoe Idealize.SL.Sem
open Idealize.ShloMosaic.ValueIdx Cert.LayerSpec
namespace Cert.KernelIdeal.Layer

open Cert.KernelIdeal Cert.KernelIdeal.Gen

variable (m : (ℓ : Loc nD τ sig) → Buf (Elt Ideal) ℓ)

/-- What a step adds at a point is that point's tile of the aggregate. -/
theorem step_addend (c : Dev nD) (t : Fin cfg0.N) (r : Fin 1024) (d : Fin 512) :
    ∑ kk : Fin 1024, adjBlock m c t (ix2 r kk) * featureRows (grid0.coords t) (featAll m c t) (ix2 kk d)
      = tile (adjArr m c) (featArr m c) (1024 * (t.val / 8) + r.val) (t.val % 8) d := by
  unfold tile
  exact Finset.sum_congr rfl fun kk _ => by rw [adjBlock_apply, featRows_apply]

/-- The accumulator after point n holds the partial aggregate: tiles 0 … n % 8. -/
theorem acc_eq (c : Dev nD) : ∀ (n : ℕ) (h : n < cfg0.N) (r : Fin 1024) (d : Fin 512),
    (outsAt0 m c n h).2 (ix2 r d)
      = ∑ s ∈ Finset.range (n % 8 + 1), tile (adjArr m c) (featArr m c) (1024 * (n / 8) + r.val) s d
  | 0, h, r, d => by
    have e : (outsAt0 m c 0 h).2 = accStep (grid0.coords ⟨0, h⟩) (adjBlock m c ⟨0, h⟩) (featAll m c ⟨0, h⟩) zeroAcc :=
      acc_at_first m c ⟨0, h⟩ rfl
    rw [e]
    refine (accStep_apply (grid0.coords ⟨0, h⟩) (adjBlock m c ⟨0, h⟩) (featAll m c ⟨0, h⟩) zeroAcc r d).trans ?_
    rw [zeroAcc_apply, zero_add, step_addend m c ⟨0, h⟩ r d]
    show tile _ _ (1024 * (0 / 8) + r.val) (0 % 8) d = ∑ s ∈ Finset.range (0 % 8 + 1), tile _ _ (1024 * (0 / 8) + r.val) s d
    rw [show (0 % 8 + 1) = 1 from rfl, Finset.sum_range_one]
  | n + 1, h, r, d => by
    have ih := acc_eq c n (Nat.lt_of_succ_lt h) r d
    have hN : n + 1 < 64 := lt_of_lt_of_eq h (show cfg0.N = 64 from N_0)
    by_cases h0 : (n + 1) % 8 = 0
    · have e : (outsAt0 m c (n + 1) h).2
          = accStep (grid0.coords ⟨n + 1, h⟩) (adjBlock m c ⟨n + 1, h⟩) (featAll m c ⟨n + 1, h⟩) zeroAcc :=
        acc_at_first m c ⟨n + 1, h⟩ h0
      rw [e]
      refine (accStep_apply (grid0.coords ⟨n + 1, h⟩) (adjBlock m c ⟨n + 1, h⟩) (featAll m c ⟨n + 1, h⟩) zeroAcc r d).trans ?_
      rw [zeroAcc_apply, zero_add, step_addend m c ⟨n + 1, h⟩ r d]
      show tile _ _ (1024 * ((n + 1) / 8) + r.val) ((n + 1) % 8) d = _
      rw [h0, Finset.sum_range_one]
    · have e : (outsAt0 m c (n + 1) h).2
          = accStep (grid0.coords ⟨n + 1, h⟩) (adjBlock m c ⟨n + 1, h⟩) (featAll m c ⟨n + 1, h⟩)
              (outsAt0 m c n (Nat.lt_of_succ_lt h)).2 :=
        acc_at_next m c ⟨n + 1, h⟩ h0
      rw [e]
      refine (accStep_apply (grid0.coords ⟨n + 1, h⟩) (adjBlock m c ⟨n + 1, h⟩) (featAll m c ⟨n + 1, h⟩)
        (outsAt0 m c n (Nat.lt_of_succ_lt h)).2 r d).trans ?_
      rw [ih, step_addend m c ⟨n + 1, h⟩ r d]
      show (∑ s ∈ Finset.range (n % 8 + 1), tile _ _ (1024 * (n / 8) + r.val) s d)
          + tile _ _ (1024 * ((n + 1) / 8) + r.val) ((n + 1) % 8) d = _
      have e1 : n / 8 = (n + 1) / 8 := by omega
      have e2 : n % 8 + 1 = (n + 1) % 8 := by omega
      rw [e1, e2, Finset.sum_range_succ]

end Cert.KernelIdeal.Layer

end
-- ==== Proof.KernelValue.lean ====
/-
  The kernel's result array after the run is the layer of its four arguments.
  A row tile's block is written back once, at the row tile's last contraction tile (point 8·q + 7), and by then the
  accumulator holds all eight tiles of the aggregate, which is the whole contraction; the block is that aggregate
  against the transposed weight, plus the bias, clamped below at zero, which is the layer read at rows
  1024·q … 1024·q + 1023. The eight blocks tile the 8192 rows, so the array ends holding the layer everywhere.
-/
import proofs.«161947_j37692632990313_1_alg».proof.Proof.Acc
import proofs.«161947_j37692632990313_1_alg».proof.Proof.Gen.KernelIdeal.Value

noncomputable section

open Idealize.ShloMosaic Idealize.ShloMosaic.TcCoe Idealize.SL.Sem
open Idealize.ShloMosaic.ValueIdx Cert.LayerSpec
open Idealize.ShloMosaic.Pipeline (Dat)
namespace Cert.KernelIdeal.Layer

open Cert.KernelIdeal Cert.KernelIdeal.Gen

variable (m : (ℓ : Loc nD τ sig) → Buf (Elt Ideal) ℓ) (ρ : Dev nD → PrngReg)

/-- The layer of the arguments as launched, as contents of the result array. -/
abbrev result (c : Dev nD) : Buf (Elt Ideal) ((c : Thread nD τ).loc main_v2) :=
  layer (featArr m c) (adjArr m c) (weightArr m c) (biasArr m c)

/-- At a row tile's last contraction tile, entry (r, j) of the finished block is the layer at row
    1024·(t / 8) + r and column j. -/
theorem finished_block (c : Dev nD) (t : Fin cfg0.N) (h1 : t.val % 8 = 7) (r : Fin 1024) (j : Fin 512)
    (hr : 1024 * (t.val / 8) + r.val < 8192) :
    k0_pay3 (outsAt0 m c t.val t.isLt).2 (weightT m c t) (biasRow m c t) (ix2 r j)
      = result m c (ix2 ⟨1024 * (t.val / 8) + r.val, hr⟩ j) := by
  refine (finish_apply (outsAt0 m c t.val t.isLt).2 (weightT m c t) (biasRow m c t) r j).trans ?_
  show _ = max ((∑ d : Fin 512, agg (adjArr m c) (featArr m c) ⟨1024 * (t.val / 8) + r.val, hr⟩ d * weightArr m c (ix2 j d))
      + biasArr m c (ix1 j)) (Ideal.ofBits .f32 0x00000000#32)
  rw [biasRow_apply m c t j]
  refine congrArg (fun z => max (z + biasArr m c (ix1 j)) (Ideal.ofBits .f32 0x00000000#32)) ?_
  refine Finset.sum_congr rfl fun d _ => ?_
  rw [weightT_apply m c t d j, acc_eq m c t.val t.isLt r d, agg_eq_tiles, h1]

/-- What a flushing point writes back is its block of the layer. -/
theorem flushed_eq (c : Dev nD) (t : Fin cfg0.N) (hf : (cfg0.win 4).flush t = true) :
    (dats m 0 c).flushed 4 t = ((cfg0.win 4).blk t).view.read (Elt Ideal) (result m c) := by
  have h1 : t.val % 8 = 7 := (flush0_4 t).mp hf
  have hN := lt_of_lt_of_eq t.isLt (show cfg0.N = 64 from N_0)
  rw [Cert.KernelIdeal.Value.flushed4, block_at_last m c t h1]
  funext y
  have hy0 : (y 0).val < 1024 := (y 0).isLt
  have hy1 : (y 1).val < 512 := (y 1).isLt
  have hr : 1024 * (t.val / 8) + (y 0).val < 8192 := by omega
  rw [View.read_apply]
  have hemb : ((cfg0.win 4).blk t).view.emb y
      = ix2 (⟨1024 * (t.val / 8) + (y 0).val, hr⟩ : Fin 8192) (⟨(y 1).val, hy1⟩ : Fin 512) :=
    funext fun a => Fin.ext (by
      match a with
      | ⟨0, _⟩ => show win0_4.index t 0 * 1024 + 1 * (y 0).val = 1024 * (t.val / 8) + (y 0).val; rw [(out_index t).1]; omega
      | ⟨1, _⟩ => show win0_4.index t 1 * 512 + 1 * (y 1).val = (y 1).val; rw [(out_index t).2]; omega)
  have hin : (cfg0.win 4).xinj (grid0.coords t) y = ix2 (⟨(y 0).val, hy0⟩ : Fin 1024) (⟨(y 1).val, hy1⟩ : Fin 512) :=
    funext fun a => match a with
      | ⟨0, _⟩ => rfl
      | ⟨1, _⟩ => rfl
  show k0_pay3 (outsAt0 m c t.val t.isLt).2 (weightT m c t) (biasRow m c t) ((cfg0.win 4).xinj (grid0.coords t) y)
      = result m c (((cfg0.win 4).blk t).view.emb y)
  rw [hemb, hin]
  exact finished_block m c t h1 ⟨(y 0).val, hy0⟩ ⟨(y 1).val, hy1⟩ hr

/-- An index of the result array is in point t's block when its row is among the block's 1024 rows. -/
theorem mem_block (t : Fin cfg0.N) (i : S8192x512.Idx) :
    i ∈ ((cfg0.win 4).blk t).view.set
      ↔ ∀ a : Fin 2, win0_4.index t a * S1024x512.size a ≤ (i a).val ∧ (i a).val < win0_4.index t a * S1024x512.size a + S1024x512.size a := by
  show i ∈ ((View.whole main_v2).slice (win0_4.rect t)).set ↔ _
  rw [View.set_slice_whole, Rect.mem_set_unit]
  exact Iff.rfl

/-- The eight written blocks tile the rows, so the result array ends holding the layer. -/
theorem final (c : Dev nD) : (dats m 0 c).arrAt 4 cfg0.N = result m c :=
  (dats m 0 c).arrAt_eq_of_cover 4 (result m c) (flushed_eq m c) fun i => by
    have hi0 : (i 0).val < 8192 := (i 0).isLt
    have hi1 : (i 1).val < 512 := (i 1).isLt
    have ht : 8 * ((i 0).val / 1024) + 7 < cfg0.N := by rw [show cfg0.N = 64 from N_0]; omega
    refine ⟨⟨8 * ((i 0).val / 1024) + 7, ht⟩, (flush0_4 _).mpr (by show (8 * ((i 0).val / 1024) + 7) % 8 = 7; omega), ?_⟩
    rw [mem_block]
    have q := out_index ⟨8 * ((i 0).val / 1024) + 7, ht⟩
    have q0 : win0_4.index ⟨8 * ((i 0).val / 1024) + 7, ht⟩ 0 = (i 0).val / 1024 := by rw [q.1]; show (8 * ((i 0).val / 1024) + 7) / 8 = _; omega
    intro a
    match a with
    | ⟨0, _⟩ => show win0_4.index ⟨8 * ((i 0).val / 1024) + 7, ht⟩ 0 * 1024 ≤ (i 0).val ∧ (i 0).val < win0_4.index ⟨8 * ((i 0).val / 1024) + 7, ht⟩ 0 * 1024 + 1024
                rw [q0]; omega
    | ⟨1, _⟩ => show win0_4.index ⟨8 * ((i 0).val / 1024) + 7, ht⟩ 1 * 512 ≤ (i 1).val ∧ (i 1).val < win0_4.index ⟨8 * ((i 0).val / 1024) + 7, ht⟩ 1 * 512 + 512
                rw [q.2]; omega

/-- The run, read: the result array at the layer of the arguments, the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end Cert.KernelIdeal.Layer

end
-- ==== Proof.RefValue.lean ====
/-
  The reference computes the layer. Its nine host operations are two plain matrix products (the adjacency matrix by the
  features, then that aggregate by the transposed weight), the bias broadcast over the rows, a sum, and a maximum with
  a broadcast zero. Read at one entry, operation by operation, that is
    max (∑ d, (∑ K, adj (i, K) · x (K, d)) · W (j, d) + b j, 0),
  the layer's own definition: only the index bookkeeping of the transpose and the two broadcasts is left to match.
-/
import proofs.«161947_j37692632990313_1_alg».proof.Proof.Gen.ReferenceIdeal.Read
import proofs.«161947_j37692632990313_1_alg».proof.Proof.Spec

noncomputable section

open Idealize.ShloMosaic Idealize.ShloMosaic.ValueIdx

namespace Cert.ReferenceIdeal.Layer

open Cert.ReferenceIdeal Cert.ReferenceIdeal.Read Cert.LayerSpec

/-- The reference's last stage, as a function of the four arguments, is the layer. -/
theorem reference_eq (x0 : (⟨S8192x512, .f32⟩ : BufTy).Contents (Elt Ideal)) (x1 : (⟨S8192x8192, .f32⟩ : BufTy).Contents (Elt Ideal))
    (x2 : (⟨S512x512, .f32⟩ : BufTy).Contents (Elt Ideal)) (x3 : (⟨S512, .f32⟩ : BufTy).Contents (Elt Ideal)) :
    val_main_v6 (F := Ideal) x0 x1 x2 x3 = layer x0 x1 x2 x3 := by
  funext i
  have e1 : ∀ (k : Fin 512) (K : Fin 8192), lidx_main_v0 (lidx_main_v2 i k) K = ix2 (i 0) K := fun k K =>
    funext fun a => Fin.ext (by match a with | ⟨0, _⟩ => rfl | ⟨1, _⟩ => rfl)
  have e2 : ∀ (k : Fin 512) (K : Fin 8192), ridx_main_v0 (lidx_main_v2 i k) K = ix2 K k := fun k K =>
    funext fun a => Fin.ext (by match a with | ⟨0, _⟩ => rfl | ⟨1, _⟩ => rfl)
  have e3 : ∀ k : Fin 512, idx_main_v1 (ridx_main_v2 i k) = ix2 (i 1) k := fun k =>
    funext fun a => Fin.ext (by match a with | ⟨0, _⟩ => rfl | ⟨1, _⟩ => rfl)
  have e4 : idx_main_v3 (idx_main_v4 i) = ix1 (i 1) :=
    funext fun a => Fin.ext (by match a with | ⟨0, _⟩ => rfl)
  rw [val_main_v6_apply, val_main_v5_apply, val_main_v2_apply, val_main_v4_apply, val_main_v3_apply,
    val_main_call0_v0_apply, val_main_call0_cst_apply]
  simp only [val_main_v0_apply, val_main_v1_apply, e1, e2, e3, e4]
  rfl

end Cert.ReferenceIdeal.Layer

end
-- ==== Proof.lean ====
/-
  A graph layer on 8192 nodes with 512 features: aggregate the neighbours' features through the adjacency matrix, apply
  a linear map with bias, clamp below at zero,
      out (i, j) = max (∑ d, (∑ K, adj (i, K) · x (K, d)) · W (j, d) + b j, 0).
  The kernel tiles the 8192 rows into 8 row tiles and the 8192 neighbours into 8 contraction tiles; per row tile it
  accumulates the eight partial products in a buffer kept between grid points and finishes the block at the last one.
  The reference is two whole matrix products, a broadcast sum and a maximum.

  Over the extended reals the two agree entry by entry. A change of float format is the identity there, a block product
  into a zero accumulator and the host's product are the same finite sum, and the only law between the two sides is
  that a sum over 8192 neighbours is the sum of its eight tiles of 1024, which needs commutativity and associativity of
  addition only. So the precondition (every input finite) is never opened.

  The frames of the kernel and of its idealization are the generated ones. The reference has no kernel: its frame is
  its run with the result dropped. The ideal pass rewrote no operation, so the idealization claim is the trivial one.
-/
import proofs.«161947_j37692632990313_1_alg».proof.Defs
import proofs.«161947_j37692632990313_1_alg».proof.Proof.Gen.Kernel
import proofs.«161947_j37692632990313_1_alg».proof.Proof.Gen.Kernel.Skeleton
import proofs.«161947_j37692632990313_1_alg».proof.Proof.Gen.Kernel.Launch
import proofs.«161947_j37692632990313_1_alg».proof.Proof.Gen.Kernel.Points
import proofs.«161947_j37692632990313_1_alg».proof.Proof.Gen.Kernel.Frame
import proofs.«161947_j37692632990313_1_alg».proof.Proof.Gen.KernelIdeal
import proofs.«161947_j37692632990313_1_alg».proof.Proof.Gen.KernelIdeal.Skeleton
import proofs.«161947_j37692632990313_1_alg».proof.Proof.Gen.KernelIdeal.Launch
import proofs.«161947_j37692632990313_1_alg».proof.Proof.Gen.KernelIdeal.Points
import proofs.«161947_j37692632990313_1_alg».proof.Proof.Gen.KernelIdeal.Frame
import proofs.«161947_j37692632990313_1_alg».proof.Proof.Gen.ReferenceIdeal
import proofs.«161947_j37692632990313_1_alg».proof.Proof.Gen.Pre_finite_inputs
import proofs.«161947_j37692632990313_1_alg».proof.Proof.Gen.KernelIdeal.Value
import proofs.«161947_j37692632990313_1_alg».proof.Proof.Gen.ReferenceIdeal.Run
import proofs.«161947_j37692632990313_1_alg».proof.Proof.Gen.ReferenceIdeal.Read
import proofs.«161947_j37692632990313_1_alg».proof.Proof.KernelValue
import proofs.«161947_j37692632990313_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run ends with its arguments unchanged; the frame forgets what the result holds. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with their result array at the layer of the arguments: the kernel's by the accumulation over the
    contraction tiles and the cover of the rows by the eight written blocks, the reference's by reading its nine
    operations at an entry; the arguments agree, so the two results are one array. -/
theorem algebraic : Cert.algebraic_KernelIdeal_ReferenceIdeal := by
  intro m ρ m' ρ' _ hagree
  refine ⟨fun c => Cert.KernelIdeal.Layer.result m c, Cert.KernelIdeal.Layer.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.Layer.reference_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
